-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S328x10000 : Shape := ⟨2, ![328, 10000]⟩
abbrev S328x128 : Shape := ⟨2, ![328, 128]⟩

abbrev nBuf : Space → Nat
  | .hbm => 6
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S10000x128, .f32⟩
  | .local _ .vmem, ⟨1, _⟩ => ⟨S328x10000, .f32⟩
  | .local _ .vmem, ⟨2, _⟩ => ⟨S328x10000, .f32⟩
  | .local _ .vmem, ⟨3, _⟩ => ⟨S128x128, .f32⟩
  | .local _ .vmem, ⟨4, _⟩ => ⟨S1x128, .f32⟩
  | .local _ .vmem, ⟨5, _⟩ => ⟨S328x128, .f32⟩
  | .local _ .vmem, ⟨6, _⟩ => ⟨S328x128, .f32⟩
  | .local _ .vmem, ⟨7, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S328x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S328x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S328x10000_S328x10000_0_0 : ∀ a, (![0, 0] : Fin 2 → Nat) a + S328x10000.size a ≤ S328x10000.size a
  h_S328x10000 : 0 < S328x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S328x128 : S1x128.Broadcasts S328x128
  inb_S328x128_S328x128_0_0 : ∀ a, (![0, 0] : Fin 2 → Nat) a + S328x128.size a ≤ S328x128.size a
  h_S328x128 : 0 < S328x128.numel
  dot_S10000x128_S128x128_S10000x128_1_0_0_1_n_n_wf : DotDims.WF S10000x128 S128x128 S10000x128 [1] [0] [0] [1] [] []
  dot_S328x10000_S10000x128_S328x128_1_0_0_1_n_n_wf : DotDims.WF S328x10000 S10000x128 S328x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S328x10000.size a < S10000x10000.size a
  hwx0_1 : ∀ i : grid0.Coords, EltTy.bits .f32 = 32 ∨ (Rect.unit (s := S10000x10000) (fun a => cc0_transform_1 i a * S328x10000.size a) (fun a => (Pipeline.Clip.of (cc0_transform_1 i a) (S328x10000.size a) (S10000x10000.size a)).extent (S328x10000.size a)) fun a => Pipeline.Clip.inb (Pipeline.Clip.ok_of (hstart0_1 i a))).WholeWords (EltTy.packing .f32)
  hwxs0_1 : ∀ i : grid0.Coords, EltTy.bits .f32 = 32 ∨ (Rect.unit (s := S328x10000) (fun _ => 0) (fun a => (Pipeline.Clip.of (cc0_transform_1 i a) (S328x10000.size a) (S10000x10000.size a)).extent (S328x10000.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S328x128.size a < S10000x128.size a
  hwx0_4 : ∀ i : grid0.Coords, EltTy.bits .f32 = 32 ∨ (Rect.unit (s := S10000x128) (fun a => cc0_transform_4 i a * S328x128.size a) (fun a => (Pipeline.Clip.of (cc0_transform_4 i a) (S328x128.size a) (S10000x128.size a)).extent (S328x128.size a)) fun a => Pipeline.Clip.inb (Pipeline.Clip.ok_of (hstart0_4 i a))).WholeWords (EltTy.packing .f32)
  hwxs0_4 : ∀ i : grid0.Coords, EltTy.bits .f32 = 32 ∨ (Rect.unit (s := S328x128) (fun _ => 0) (fun a => (Pipeline.Clip.of (cc0_transform_4 i a) (S328x128.size a) (S10000x128.size a)).extent (S328x128.size a)) fun a => (Nat.zero_add _).trans_le (Pipeline.Clip.extent_le (Pipeline.Clip.ok_of (hstart0_4 i a)))).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S328x10000_S10000x128_S328x128_1_0_0_1_n_n : DotDims S328x10000 S10000x128 S328x128 where
  lhsContracting := [1]
  rhsContracting := [0]
  lhsNonContracting := [0]
  rhsNonContracting := [1]
  lhsBatch := []
  rhsBatch := []
  wf := dot_S328x10000_S10000x128_S328x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S328x10000.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v1) S328x128.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S_, .f32⟩
  | .hbm, ⟨10, _⟩ => ⟨S10000x128, .f32⟩
  | .hbm, ⟨11, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KernelFrame.lean ====
/-
  The word-level kernel runs to its end, faults nowhere and leaves its four argument arrays as it found them.
-/
import proofs.«167737_g85864986181825_cont_9to1_m_527_19_alg».proof.Proof.Gen.Kernel.Frame
import proofs.«167737_g85864986181825_cont_9to1_m_527_19_alg».proof.Proof.Gen.Kernel.Skeleton
import Idealize.ShloMosaic.Lib.Pipeline.Frame
import Idealize.ShloMosaic.Lib.Tactic

set_option maxRecDepth 16384

noncomputable section

namespace Cert.Kernel.FrameProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel's body at any grid point, on staging memrefs that are whole buffers and on the scratch buffer, each held
    at some contents: it runs to its return, faulting nowhere, and hands every buffer back at some contents. Nothing
    the body does — the branch on the grid coordinate, its loads, its two stores — reads a value out of a buffer to
    decide an address, a count or a branch. -/
theorem kernelRun (c : Dev nD) (i : grid0.Coords)
    (M1 : Memref sig .tc .vmem S10000x128 .f32) (h1 : M1.IsWhole) (M2 : Memref sig .tc .vmem S328x10000 .f32) (h2 : M2.IsWhole)
    (M3 : Memref sig .tc .vmem S128x128 .f32) (h3 : M3.IsWhole) (M4 : Memref sig .tc .vmem S1x128 .f32) (h4 : M4.IsWhole)
    (M5 : Memref sig .tc .vmem S328x128 .f32) (h5 : M5.IsWhole) (M6 : Memref sig .tc .vmem S10000x128 .bf16) (h6 : M6.IsWhole)
    (Q : PUnit → sProp 𝕄) :
    iprop((∃ X, owns (c : Thread nD τ) M1 fullShare X) ∗ (∃ X, owns (c : Thread nD τ) M2 fullShare X)
        ∗ (∃ X, owns (c : Thread nD τ) M3 fullShare X) ∗ (∃ X, owns (c : Thread nD τ) M4 fullShare X)
        ∗ (∃ X, owns (c : Thread nD τ) M5 fullShare X) ∗ (∃ X, owns (c : Thread nD τ) M6 fullShare X)
        ∗ (iprop((∃ X, owns (c : Thread nD τ) M1 fullShare X) ∗ (∃ X, owns (c : Thread nD τ) M2 fullShare X)
            ∗ (∃ X, owns (c : Thread nD τ) M3 fullShare X) ∗ (∃ X, owns (c : Thread nD τ) M4 fullShare X)
            ∗ (∃ X, owns (c : Thread nD τ) M5 fullShare X) ∗ (∃ X, owns (c : Thread nD τ) M6 fullShare X)) -∗ Q ⟨⟩))
      ⊢ wp frame (wpE (defs₀ (F := F)) Variants.none c none) Set.univ
          (cc0__gcn_fused i M1 h1 M2 h2 M3 h3 M4 h4 M5 h5 M6 h6) Q := by
  unfold owns
  iintro ⟨⟨%X1, %f1, %e1, H1⟩, ⟨%X2, %f2, %e2, H2⟩, ⟨%X3, %f3, %e3, H3⟩, ⟨%X4, %f4, %e4, H4⟩, ⟨%X5, %f5, %e5, H5⟩, ⟨%X6, %f6, %e6, H6⟩, Hk⟩
  by_cases hc : Scalar.cmpi .ne (Scalar.extui (Scalar.cmpi .eq (BitVec.ofNat 32 (i 0).val) 0#32)) 0#32 = 1#1
  · sl_unfold [cc0__gcn_fused]
    sl_exec
    sl_step
    iapply Hk
    isplitl [H1]
    · iexists _; iexists _; isplitr
      swap
      · iexact H1
      ipureintro; rfl
    isplitl [H2]
    · iexists _; iexists _; isplitr
      swap
      · iexact H2
      ipureintro; rfl
    isplitl [H3]
    · iexists _; iexists _; isplitr
      swap
      · iexact H3
      ipureintro; rfl
    isplitl [H4]
    · iexists _; iexists _; isplitr
      swap
      · iexact H4
      ipureintro; rfl
    isplitl [H5]
    · iexists _; iexists _; isplitr
      swap
      · iexact H5
      ipureintro; rfl
    iexists _; iexists _; isplitr
    swap
    · iexact H6
    ipureintro; rfl
  · sl_unfold [cc0__gcn_fused]
    sl_exec
    sl_step
    iapply Hk
    isplitl [H1]
    · iexists _; iexists _; isplitr
      swap
      · iexact H1
      ipureintro; rfl
    isplitl [H2]
    · iexists _; iexists _; isplitr
      swap
      · iexact H2
      ipureintro; rfl
    isplitl [H3]
    · iexists _; iexists _; isplitr
      swap
      · iexact H3
      ipureintro; rfl
    isplitl [H4]
    · iexists _; iexists _; isplitr
      swap
      · iexact H4
      ipureintro; rfl
    isplitl [H5]
    · iexists _; iexists _; isplitr
      swap
      · iexact H5
      ipureintro; rfl
    iexists _; iexists _; isplitr
    swap
    · iexact H6
    ipureintro; rfl

/-- The proof data of the one region on a core: the windowed arrays as the region finds them, the class invariant
    (the scratch buffer and the generator register, each at some contents), full shares, nothing owed. What the body
    leaves in a staging buffer is not named: every window is read with its relation saying nothing. -/
def dats (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q _ := fullShare
  owed _ := 0

/-- The scratch buffer held whole at some contents, said of the whole-buffer memref the body is called with. -/
theorem scratch_eq (c : Dev nD) :
    (iprop(∃ X, owns (c : Thread nD τ) (Memref.whole cc0_scratch0) fullShare X) : sProp 𝕄)
      = iprop(∃ f : Buf (Elt F) ((c : Thread nD τ).loc cc0_scratch0), ((c : Thread nD τ).loc cc0_scratch0) ↦{fullShare} f) := by
  simp only [owns_whole]

/-- The body obligation with every window forgotten: at each point the body is handed the five current staging
    buffers and the scratch buffer at contents nothing names, and hands them back so. -/
theorem body_obligation (c : Dev nD) :
    BodyObligationLoose (dats (F := F) m 0 c) (defs₀ (F := F)) Variants.none () Set.univ (fun _ => true) := fun t => by
  rw [bigSep_W0]
  simp only
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq, ← scratch_eq]
  iintro ⟨⟨Hs, Hg⟩, Ho, H0, H1, H2, H3, H4⟩
  iapply (kernelRun (F := F) c (grid0.coords t) (stage0_0 (cfg0.slots t 0)) (hstage0_0 _) (stage0_1 (cfg0.slots t 1)) (hstage0_1 _)
    (stage0_2 (cfg0.slots t 2)) (hstage0_2 _) (stage0_3 (cfg0.slots t 3)) (hstage0_3 _) (stage0_4 (cfg0.slots t 4)) (hstage0_4 _)
    (Memref.whole cc0_scratch0) (Memref.isWhole_whole _) _)
  isplitl [H0]; · iexact H0
  isplitl [H1]; · iexact H1
  isplitl [H2]; · iexact H2
  isplitl [H3]; · iexact H3
  isplitl [H4]; · iexact H4
  isplitl [Hs]; · iexact Hs
  iintro ⟨H0, H1, H2, H3, H4, Hs⟩
  isplitl [Hs Hg]
  · isplitl [Hs]; · iexact Hs
    iexact Hg
  isplitl [Ho]; · iexact Ho
  isplitl [H0]; · iexact H0
  isplitl [H1]; · iexact H1
  isplitl [H2]; · iexact H2
  isplitl [H3]; · iexact H3
  iexact H4

-- the library theorem's implicit arguments are found by unifying its conclusion with the statement below, which takes
-- unfolding plain definitions in a metavariable's type
set_option backward.isDefEq.respectTransparency.types false in
/-- The run: every weakly fair execution of the program from a memory with zero counters ends, without a fault, with
    each windowed array at contents its window's relation admits (an input's: what the region found) and every other
    unscoped buffer as the region found it. -/
theorem run_main : θ_run defs (onTc (τ := τ) (main (F := F))) (s₀ m ρ)
    (Pipeline.RDat.FramePost cfg0 (fun c => (dats (F := F) m 0 c).toRForget fun _ => true) (V m)) :=
  Pipeline.RDat.θ_run_frame cfgs (0 : Fin 1) launch0 defs₀ Variants.none
    (fun c => (dats (F := F) m 0 c).toRForget fun _ => true) m ρ main
    (hbody := fun c => (body_obligation m c).toRForget)
    (hshare := fun c => (dats (F := F) m 0 c).share_full fun _ => rfl)
    (howed := fun _ _ => rfl) (V := V m) (hmain := hmain m Variants.none)
    (hA := fun _ _ => rfl) (hΦ := fun _ _ => rfl)

/- The frame from the run's post: an input window's array holds what the region found there, which is what the program
   was launched with (no host operation before the region writes an argument array); the fourth argument array is
   staged by no window and bypasses the region. -/
/-- Every weakly fair execution of the program ends, without a fault, with the four argument arrays unchanged. -/
theorem frame_run :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(Pipeline.RDat.FramePost.arr_in h c (0 : Fin 5) rfl).trans (V_main_arg0 m c),
     (Pipeline.RDat.FramePost.arr_in h c (1 : Fin 5) rfl).trans (V_main_arg1 m c),
     (Pipeline.RDat.FramePost.arr_in h c (2 : Fin 5) rfl).trans (V_main_arg2 m c),
     ((h c).2 main_arg3 (Pipeline.mem_restRefs_of main_arg3 (by decide) (by decide))).trans (V_main_arg3 m c)⟩)
    (run_main m ρ)

end Cert.Kernel.FrameProof

end
-- ==== Proof.Spec.lean ====
/-
  The function both programs compute, stated once over the four argument arrays and over no program:
  a graph-convolution layer with a dense adjacency matrix, `relu (adj · (x · W) + b)`.

  At the ideal values a float is an extended real and every product of matrices is the plain sum over the
  contracted index, so entry (r, h) of the result is

      max ( Σ_k adj[r, k] · ( Σ_j x[k, j] · W[j, h] ) + b[h] , 0 ).

  The inner sum is entry (k, h) of the product x · W (`support`); both programs form that product first and
  multiply it by the adjacency matrix afterwards, in that grouping, so no law of arithmetic is needed to compare
  them and the inputs' finiteness is never used.
-/
import Idealize.ShloMosaic.PureOps.Ideal
import Idealize.ShloMosaic.Lib.ValueIdx

noncomputable section

open scoped BigOperators

namespace Cert.Spec

open Idealize.ShloMosaic Idealize.ShloMosaic.ValueIdx

/-- The shapes of the arguments and of the result, as literals. -/
abbrev SX : Shape := ⟨2, ![10000, 128]⟩
abbrev SA : Shape := ⟨2, ![10000, 10000]⟩
abbrev SW : Shape := ⟨2, ![128, 128]⟩
abbrev SB : Shape := ⟨1, ![128]⟩

/-- Entry (k, h) of the product x · W: the row k of x against the column h of W. -/
def support (x : SX.Idx → EReal) (w : SW.Idx → EReal) (k : Fin 10000) (h : Fin 128) : EReal :=
  ∑ j : Fin 128, x (ix2 k j) * w (ix2 j h)

/-- Entry (r, h) of adj · (x · W) + b before the rectifier: row r of the adjacency matrix against column h of
    the product, plus the bias of column h. -/
def pre (x : SX.Idx → EReal) (adj : SA.Idx → EReal) (w : SW.Idx → EReal) (b : SB.Idx → EReal)
    (r : Fin 10000) (h : Fin 128) : EReal :=
  (∑ k : Fin 10000, adj (ix2 r k) * support x w k h) + b (ix1 h)

/-- The layer's result: the rectifier applied entry by entry. -/
def layer (x : SX.Idx → EReal) (adj : SA.Idx → EReal) (w : SW.Idx → EReal) (b : SB.Idx → EReal) :
    SX.Idx → EReal :=
  fun i => max (pre x adj w b (i 0) (i 1)) 0

theorem layer_apply (x : SX.Idx → EReal) (adj : SA.Idx → EReal) (w : SW.Idx → EReal) (b : SB.Idx → EReal)
    (r : Fin 10000) (h : Fin 128) :
    layer x adj w b (ix2 r h) = max ((∑ k : Fin 10000, adj (ix2 r k) * support x w k h) + b (ix1 h)) 0 := rfl

end Cert.Spec

end
-- ==== Proof.Geo.lean ====
/-
  Where the windows' blocks lie in their arrays. The adjacency matrix and the result are cut into blocks of 328
  rows; 10000 = 30 · 328 + 160, so the last of the 31 blocks overhangs the array and only its first 160 rows are
  moved. Row j of block t is row 328 · t + j of the array. The other three windows hold their whole arrays.
-/
import proofs.«167737_g85864986181825_cont_9to1_m_527_19_alg».proof.Proof.Gen.KernelIdeal.Frame
import Idealize.ShloMosaic.Lib.ValueIdx
import Idealize.ShloMosaic.Lib.ValueLayout
import Idealize.ShloMosaic.Lib.Pipeline.Value

set_option maxRecDepth 16384

noncomputable section

namespace Cert.KernelIdeal.Geo

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-! ## The extents, decided once over the 31 grid points -/

/-- At point t the output window's block index is (t, 0); its moved part has min 328 (10000 − 328 · t) rows, all inside
    the array, and all 128 columns. -/
theorem ext4 : ∀ t : Fin grid0.N, t.val * 328 + win0_4.xsize (grid0.coords t) 0 ≤ 10000 ∧ win0_4.xsize (grid0.coords t) 0 ≤ 328 ∧ win0_4.xsize (grid0.coords t) 1 = 128
    ∧ win0_4.index t 0 = t.val ∧ win0_4.index t 1 = 0 ∧ win0_4.xsize (grid0.coords t) 0 = min 328 (10000 - t.val * 328) := by decide +kernel
/-- The adjacency window's block index is (t, 0) too; its moved part has the same rows and all 10000 columns. -/
theorem ext1 : ∀ t : Fin grid0.N, win0_1.xsize (grid0.coords t) 0 = win0_4.xsize (grid0.coords t) 0 ∧ win0_1.xsize (grid0.coords t) 1 = 10000
    ∧ win0_1.index t 0 = t.val ∧ win0_1.index t 1 = 0 := by decide +kernel

/-- A coordinate of an index of the moved part is below the moved size on its axis. -/
theorem xidx_lt {G : Pipeline.Grid} (w : Pipeline.Window sig G) (i : G.Coords) (j : (w.xblock i).Idx) (a : Fin w.shape.rank) :
    (j a).val < w.xsize i a := (j a).isLt

/-! ## The rows and columns a block's moved part names -/

theorem blk1_row_lt (t : Fin cfg0.N) (j : (win0_1.xblock (grid0.coords t)).Idx) : t.val * 328 + (j 0).val < 10000 := by
  have h := xidx_lt win0_1 (grid0.coords t) j 0
  have e := ext1 t
  have e4 := ext4 t
  omega
theorem blk1_col_lt (t : Fin cfg0.N) (j : (win0_1.xblock (grid0.coords t)).Idx) : (j 1).val < 10000 := by
  have h := xidx_lt win0_1 (grid0.coords t) j 1
  have e := ext1 t
  omega
theorem blk4_row_lt (t : Fin cfg0.N) (j : (win0_4.xblock (grid0.coords t)).Idx) : t.val * 328 + (j 0).val < 10000 := by
  have h := xidx_lt win0_4 (grid0.coords t) j 0
  have e4 := ext4 t
  omega
theorem blk4_row_lt_block (t : Fin cfg0.N) (j : (win0_4.xblock (grid0.coords t)).Idx) : (j 0).val < 328 := by
  have h := xidx_lt win0_4 (grid0.coords t) j 0
  have e4 := ext4 t
  omega
theorem blk4_col_lt (t : Fin cfg0.N) (j : (win0_4.xblock (grid0.coords t)).Idx) : (j 1).val < 128 := by
  have h := xidx_lt win0_4 (grid0.coords t) j 1
  have e4 := ext4 t
  omega

/-- A moved index of the output block, as an index of the whole block, by coordinates. -/
theorem xinj4_eq (t : Fin cfg0.N) (j : (win0_4.xblock (grid0.coords t)).Idx) :
    (win0_4.xinj (grid0.coords t) j : S328x128.Idx) = ix2 ⟨(j 0).val, blk4_row_lt_block t j⟩ ⟨(j 1).val, blk4_col_lt t j⟩ := by
  funext a
  match a with
  | ⟨0, _⟩ => rfl
  | ⟨1, _⟩ => rfl

/-! ## The adjacency window -/

/-- The adjacency staging buffer just after the fetch at point t, whatever filled its tail (`d`), read at a row
    the output's write-back moves and any column: row 328 · t + j of the adjacency matrix. -/
theorem fetched1_apply (c : Dev nD) (t : Fin cfg0.N) (d : S328x10000.Idx → Elt F .f32)
    (j : (win0_4.xblock (grid0.coords t)).Idx) (k : Fin 10000) :
    win0_1.fill (grid0.coords t) d (iblk m c 1 t) (ix2 ⟨(j 0).val, blk4_row_lt_block t j⟩ k)
      = (m ((c : Thread nD τ).loc main_arg1) : S10000x10000.Idx → Elt F .f32) (ix2 ⟨t.val * 328 + (j 0).val, blk4_row_lt t j⟩ k) := by
  have e1 := ext1 t
  have h0 := xidx_lt win0_4 (grid0.coords t) j 0
  have hk := k.isLt
  have hmoved : win0_1.moved (grid0.coords t) (ix2 ⟨(j 0).val, blk4_row_lt_block t j⟩ k) = true := by
    refine (win0_1.moved_iff (grid0.coords t) _).mpr (fun a => ?_)
    match a with
    | ⟨0, _⟩ =>
      show (j 0).val < win0_1.xsize (grid0.coords t) 0
      omega
    | ⟨1, _⟩ =>
      show k.val < win0_1.xsize (grid0.coords t) 1
      omega
  unfold Pipeline.Window.fill
  rw [dif_pos hmoved]
  unfold iblk
  rw [View.read_apply]
  show (V m c main_arg1 : S10000x10000.Idx → Elt F .f32) (((cfg0.win 1).blk t).view.emb _) = _
  rw [V_main_arg1]
  congr 1
  funext a
  apply Fin.ext
  match a with
  | ⟨0, _⟩ =>
    show win0_1.index t 0 * 328 + 1 * (j 0).val = t.val * 328 + (j 0).val
    omega
  | ⟨1, _⟩ =>
    show win0_1.index t 1 * 10000 + 1 * k.val = k.val
    omega

/-! ## The output window -/

/-- Block t of a whole-array function, read at a moved index: the function at row 328 · t + j. -/
theorem read_blk4 (c : Dev nD) (t : Fin cfg0.N) (G : Buf (Elt F) ((cfg0.win 4).arr.view.loc (c.tc : Thread nD τ)))
    (j : (win0_4.xblock (grid0.coords t)).Idx) :
    ((cfg0.win 4).blk t).view.read (Elt F) G j
      = (G : S10000x128.Idx → Elt F .f32) (ix2 ⟨t.val * 328 + (j 0).val, blk4_row_lt t j⟩ ⟨(j 1).val, blk4_col_lt t j⟩) := by
  rw [View.read_apply]
  show G (((cfg0.win 4).blk t).view.emb j) = G _
  congr 1
  funext a
  apply Fin.ext
  have e4 := ext4 t
  match a with
  | ⟨0, _⟩ =>
    show win0_4.index t 0 * 328 + 1 * (j 0).val = t.val * 328 + (j 0).val
    omega
  | ⟨1, _⟩ =>
    show win0_4.index t 1 * 128 + 1 * (j 1).val = (j 1).val
    omega

/-- Every entry of the result lies in the moved part of some point's block: row r in block r / 328. -/
theorem cover4 (c : Dev nD) (i : ((cfg0.win 4).arr.view.loc (c.tc : Thread nD τ)).2.ty.Idx) :
    ∃ t : Fin cfg0.N, (cfg0.win 4).flush t = true ∧ i ∈ ((cfg0.win 4).blk t).view.set := by
  have hi0 : ((i : S10000x128.Idx) 0).val < 10000 := ((i : S10000x128.Idx) 0).isLt
  have hi1 : ((i : S10000x128.Idx) 1).val < 128 := ((i : S10000x128.Idx) 1).isLt
  have hN : ((i : S10000x128.Idx) 0).val / 328 < cfg0.N := by
    show _ < grid0.N
    rw [N_0]
    omega
  refine ⟨⟨((i : S10000x128.Idx) 0).val / 328, hN⟩, flush0_4 _, ?_⟩
  generalize ht : (⟨((i : S10000x128.Idx) 0).val / 328, hN⟩ : Fin cfg0.N) = t
  have htv : t.val = ((i : S10000x128.Idx) 0).val / 328 := by rw [← ht]
  have e4 := ext4 t
  show (i : S10000x128.Idx) ∈ ((View.whole main_v1).slice (win0_4.rect t)).set
  rw [View.set_slice_whole, Rect.mem_set_unit]
  intro a
  match a with
  | ⟨0, _⟩ =>
    show win0_4.index t 0 * 328 ≤ ((i : S10000x128.Idx) 0).val
      ∧ ((i : S10000x128.Idx) 0).val < win0_4.index t 0 * 328 + win0_4.xsize (grid0.coords t) 0
    omega
  | ⟨1, _⟩ =>
    show win0_4.index t 1 * 128 ≤ ((i : S10000x128.Idx) 1).val
      ∧ ((i : S10000x128.Idx) 1).val < win0_4.index t 1 * 128 + win0_4.xsize (grid0.coords t) 1
    omega

/-! ## The windows that hold whole arrays -/

theorem iblk0_eq (c : Dev nD) (t : Fin cfg0.N) :
    (iblk m c 0 t : S10000x128.Idx → Elt F .f32) = m ((c : Thread nD τ).loc main_arg0) := by
  funext y
  unfold iblk
  rw [View.read_apply]
  show (V m c main_arg0 : S10000x128.Idx → Elt F .f32) (((cfg0.win 0).blk t).view.emb y) = _
  rw [V_main_arg0]
  congr 1
  funext a
  apply Fin.ext
  match a with
  | ⟨0, _⟩ =>
    show win0_0.index t 0 * 10000 + 1 * (y 0).val = (y 0).val
    have e : win0_0.index t 0 = 0 := rfl
    omega
  | ⟨1, _⟩ =>
    show win0_0.index t 1 * 128 + 1 * (y 1).val = (y 1).val
    have e : win0_0.index t 1 = 0 := rfl
    omega
theorem iblk2_eq (c : Dev nD) (t : Fin cfg0.N) :
    (iblk m c 2 t : S128x128.Idx → Elt F .f32) = m ((c : Thread nD τ).loc main_arg2) := by
  funext y
  unfold iblk
  rw [View.read_apply]
  show (V m c main_arg2 : S128x128.Idx → Elt F .f32) (((cfg0.win 2).blk t).view.emb y) = _
  rw [V_main_arg2]
  congr 1
  funext a
  apply Fin.ext
  match a with
  | ⟨0, _⟩ =>
    show win0_2.index t 0 * 128 + 1 * (y 0).val = (y 0).val
    have e : win0_2.index t 0 = 0 := rfl
    omega
  | ⟨1, _⟩ =>
    show win0_2.index t 1 * 128 + 1 * (y 1).val = (y 1).val
    have e : win0_2.index t 1 = 0 := rfl
    omega
/-- The bias row as the region finds it: the bias vector recast from [128] to [1, 128] by the one host operation. -/
theorem V_main_v0 (c : Dev nD) :
    (V m c main_v0 : S1x128.Idx → Elt F .f32) = shapeCast S1x128 (m ((c : Thread nD τ).loc main_arg3)) shapeCasts_S128_S1x128 := by
  dsimp only [V, hostOps0]
  after_results
  rfl

/-- The bias window holds the bias vector laid out as one row. -/
theorem iblk3_apply (c : Dev nD) (t : Fin cfg0.N) (h : Fin 128) :
    (iblk m c 3 t : S1x128.Idx → Elt F .f32) (ix2 (0 : Fin 1) h)
      = (m ((c : Thread nD τ).loc main_arg3) : S128.Idx → Elt F .f32) (ix1 h) := by
  unfold iblk
  rw [View.read_apply]
  show (V m c main_v0 : S1x128.Idx → Elt F .f32) (((cfg0.win 3).blk t).view.emb (ix2 (0 : Fin 1) h)) = _
  rw [V_main_v0]
  have e : (((cfg0.win 3).blk t).view.emb (ix2 (0 : Fin 1) h) : S1x128.Idx) = ix2 (0 : Fin 1) h := by
    funext a
    apply Fin.ext
    match a with
    | ⟨0, _⟩ =>
      show win0_3.index t 0 * 1 + 1 * 0 = 0
      have e : win0_3.index t 0 = 0 := rfl
      omega
    | ⟨1, _⟩ =>
      show win0_3.index t 1 * 128 + 1 * h.val = h.val
      have e : win0_3.index t 1 = 0 := rfl
      omega
  rw [e]
  exact shapeCast_a_1a_apply _ _ _ _

end Cert.KernelIdeal.Geo

end
-- ==== Proof.PayAt.lean ====
/-
  The two values the kernel's body stores, read at one entry at the ideal values.
-/
import proofs.«167737_g85864986181825_cont_9to1_m_527_19_alg».proof.Proof.Gen.KernelIdeal.Skeleton
import proofs.«167737_g85864986181825_cont_9to1_m_527_19_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.PayAt

open Cert.KernelIdeal Cert.KernelIdeal.Gen Idealize.ShloMosaic Idealize.ShloMosaic.ValueIdx

/-! ## The first product: x · W

The contraction is over the second axis of x and the first axis of W; the four coordinates of the operands' indices
at an entry of the result and a contraction index are read one at a time. -/

theorem lhs_xw_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_xw_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_xw_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_xw_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The product x · W into the zero accumulator, at entry (k, h): the sum over j of x[k, j] · W[j, h]. -/
theorem matmul_xw_apply (x : FVec Ideal S10000x128 .f32) (w : FVec Ideal S128x128 .f32) (k : Fin 10000) (h : Fin 128) :
    FloatOps.matmul (F := Ideal) (φ₁ := .f32) (φ₂ := .f32) dot_S10000x128_S128x128_S10000x128_1_0_0_1_n_n none x w
        (constant (F := Ideal) S10000x128 .f32 0x00000000#32) (ix2 k h)
      = ∑ j : Fin 128, x (ix2 k j) * w (ix2 j h) := by
  rw [Ideal.matmul_constant_zero_apply, ← Equiv.sum_comp (ValueIdx.contrEquiv1 dot_S10000x128_S128x128_S10000x128_1_0_0_1_n_n 128 rfl rfl).symm]
  refine Finset.sum_congr rfl fun j _ => ?_
  have hk := ValueIdx.contrEquiv1_symm_val dot_S10000x128_S128x128_S10000x128_1_0_0_1_n_n 128 rfl rfl j
  have el : dot_S10000x128_S128x128_S10000x128_1_0_0_1_n_n.lhsIdx (ix2 k h) ((ValueIdx.contrEquiv1 dot_S10000x128_S128x128_S10000x128_1_0_0_1_n_n 128 rfl rfl).symm j) = ix2 k j := funext fun a => Fin.ext (by
    match a with
    | ⟨0, _⟩ => exact lhs_xw_0 _ _
    | ⟨1, _⟩ => exact (lhs_xw_1 _ _).trans hk)
  have er : dot_S10000x128_S128x128_S10000x128_1_0_0_1_n_n.rhsIdx (ix2 k h) ((ValueIdx.contrEquiv1 dot_S10000x128_S128x128_S10000x128_1_0_0_1_n_n 128 rfl rfl).symm j) = ix2 j h := funext fun a => Fin.ext (by
    match a with
    | ⟨0, _⟩ => exact (rhs_xw_0 _ _).trans hk
    | ⟨1, _⟩ => exact rhs_xw_1 _ _)
  rw [el, er]

/-! ## The second product: the adjacency block against the scratch -/

theorem lhs_as_0 (i : S328x128.Idx) (q : dot_S328x10000_S10000x128_S328x128_1_0_0_1_n_n.contr.Idx) :
    (dot_S328x10000_S10000x128_S328x128_1_0_0_1_n_n.lhsIdx i q 0).val = (i 0).val := by
  unfold DotDims.lhsIdx
  rw [dif_neg (show ¬(0 : Fin S328x10000.rank) ∈ dot_S328x10000_S10000x128_S328x128_1_0_0_1_n_n.lhsBatch by decide), dif_pos (show (0 : Fin S328x10000.rank) ∈ dot_S328x10000_S10000x128_S328x128_1_0_0_1_n_n.lhsNonContracting by decide)]
  rfl
theorem lhs_as_1 (i : S328x128.Idx) (q : dot_S328x10000_S10000x128_S328x128_1_0_0_1_n_n.contr.Idx) :
    (dot_S328x10000_S10000x128_S328x128_1_0_0_1_n_n.lhsIdx i q 1).val = (q ⟨0, by decide⟩).val :=
  dot_S328x10000_S10000x128_S328x128_1_0_0_1_n_n.lhsIdx_val_of_single rfl i q
theorem rhs_as_0 (i : S328x128.Idx) (q : dot_S328x10000_S10000x128_S328x128_1_0_0_1_n_n.contr.Idx) :
    (dot_S328x10000_S10000x128_S328x128_1_0_0_1_n_n.rhsIdx i q 0).val = (q ⟨0, by decide⟩).val :=
  dot_S328x10000_S10000x128_S328x128_1_0_0_1_n_n.rhsIdx_val_of_single rfl i q
theorem rhs_as_1 (i : S328x128.Idx) (q : dot_S328x10000_S10000x128_S328x128_1_0_0_1_n_n.contr.Idx) :
    (dot_S328x10000_S10000x128_S328x128_1_0_0_1_n_n.rhsIdx i q 1).val = (i 1).val := by
  unfold DotDims.rhsIdx
  rw [dif_neg (show ¬(1 : Fin S10000x128.rank) ∈ dot_S328x10000_S10000x128_S328x128_1_0_0_1_n_n.rhsBatch by decide), dif_pos (show (1 : Fin S10000x128.rank) ∈ dot_S328x10000_S10000x128_S328x128_1_0_0_1_n_n.rhsNonContracting by decide)]
  rfl

/-- The adjacency block against the scratch into the zero accumulator, at entry (r, h): the sum over k of
    a[r, k] · s[k, h]. -/
theorem matmul_as_apply (a : FVec Ideal S328x10000 .f32) (s : FVec Ideal S10000x128 .bf16) (r : Fin 328) (h : Fin 128) :
    FloatOps.matmul (F := Ideal) (φ₁ := .f32) (φ₂ := .bf16) dot_S328x10000_S10000x128_S328x128_1_0_0_1_n_n none a s
        (constant (F := Ideal) S328x128 .f32 0x00000000#32) (ix2 r h)
      = ∑ k : Fin 10000, a (ix2 r k) * s (ix2 k h) := by
  rw [Ideal.matmul_constant_zero_apply, ← Equiv.sum_comp (ValueIdx.contrEquiv1 dot_S328x10000_S10000x128_S328x128_1_0_0_1_n_n 10000 rfl rfl).symm]
  refine Finset.sum_congr rfl fun k _ => ?_
  have hk := ValueIdx.contrEquiv1_symm_val dot_S328x10000_S10000x128_S328x128_1_0_0_1_n_n 10000 rfl rfl k
  have el : dot_S328x10000_S10000x128_S328x128_1_0_0_1_n_n.lhsIdx (ix2 r h) ((ValueIdx.contrEquiv1 dot_S328x10000_S10000x128_S328x128_1_0_0_1_n_n 10000 rfl rfl).symm k) = ix2 r k := funext fun ax => Fin.ext (by
    match ax with
    | ⟨0, _⟩ => exact lhs_as_0 _ _
    | ⟨1, _⟩ => exact (lhs_as_1 _ _).trans hk)
  have er : dot_S328x10000_S10000x128_S328x128_1_0_0_1_n_n.rhsIdx (ix2 r h) ((ValueIdx.contrEquiv1 dot_S328x10000_S10000x128_S328x128_1_0_0_1_n_n 10000 rfl rfl).symm k) = ix2 k h := funext fun ax => Fin.ext (by
    match ax with
    | ⟨0, _⟩ => exact (rhs_as_0 _ _).trans hk
    | ⟨1, _⟩ => exact rhs_as_1 _ _)
  rw [el, er]

/-- What the first grid point stores into the scratch, at entry (k, h): entry (k, h) of the product x · W
    (the change of format to bf16 is the identity at the ideal values). -/
theorem pay1_apply (x : Vec Ideal S10000x128 .f32) (w : Vec Ideal S128x128 .f32) (k : Fin 10000) (h : Fin 128) :
    k0_pay1 (F := Ideal) x w (ix2 k h) = Cert.Spec.support x w k h := by
  unfold k0_pay1 Cert.Spec.support
  rw [shapeCast_self, truncf_apply]
  exact matmul_xw_apply x w k h

/-- What every grid point stores into its output block, at entry (r, h): row r of the adjacency block against
    column h of the scratch, plus the bias of column h, rectified. Row r of the result reads row r of the
    adjacency block and no other. -/
theorem pay2_apply (a : Vec Ideal S328x10000 .f32) (s : Vec Ideal S10000x128 .bf16) (b : Vec Ideal S1x128 .f32)
    (r : Fin 328) (h : Fin 128) :
    k0_pay2 (F := Ideal) a s b (ix2 r h)
      = max ((∑ k : Fin 10000, a (ix2 r k) * s (ix2 k h)) + b (ix2 (0 : Fin 1) h)) 0 := by
  unfold k0_pay2
  rw [maximumf_apply, addf_apply, broadcast_apply, shapeCast_self, broadcastTo_1b_ab_apply]
  rw [show (Scalar.ofBits (F := Ideal) .f32 0x00000000#32 : Ideal .f32) = 0 from Ideal.ofBits_zero_f32]
  exact congrArg (fun t => max (t + b (ix2 (0 : Fin 1) h)) 0) (matmul_as_apply a s r h)

end Cert.KernelIdeal.PayAt

end
-- ==== Proof.OutValue.lean ====
/-
  What the kernel writes back. From the first grid point on the scratch holds the product x · W; the output
  buffer after the body at point t is the rectified sum of the adjacency buffer times that product and the bias
  row. The adjacency buffer's rows past the array's end hold words nothing names (`d` below), but row r of a
  matrix product reads row r of its left factor and no other, so on the rows the write-back moves the output
  buffer does not depend on `d`: there it is block t of the layer of Spec.lean.
-/
import proofs.«167737_g85864986181825_cont_9to1_m_527_19_alg».proof.Proof.Gen.KernelIdeal.Frame
import proofs.«167737_g85864986181825_cont_9to1_m_527_19_alg».proof.Proof.Gen.KernelIdeal.Skeleton
import proofs.«167737_g85864986181825_cont_9to1_m_527_19_alg».proof.Proof.Spec
import proofs.«167737_g85864986181825_cont_9to1_m_527_19_alg».proof.Proof.PayAt
import proofs.«167737_g85864986181825_cont_9to1_m_527_19_alg».proof.Proof.Geo
import Idealize.ShloMosaic.Lib.ValueIdx

set_option maxRecDepth 16384

noncomputable section

open scoped BigOperators

namespace Cert.KernelIdeal.OutValue

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The first grid point. -/
abbrev t0 : Fin cfg0.N := ⟨0, by decide⟩

/-- What the scratch holds from the first point on: the body's first payload of the two whole-array windows. -/
def sup (c : Dev nD) : S10000x128.Idx → Elt Ideal .bf16 :=
  k0_pay1 (F := Ideal) (iblk m c 0 t0) (iblk m c 2 t0)

/-- What the output buffer holds after the body at point t, if the adjacency buffer's tail held `d`. -/
def outBuf (c : Dev nD) (t : Fin cfg0.N) (d : S328x10000.Idx → Elt Ideal .f32) : S328x128.Idx → Elt Ideal .f32 :=
  k0_pay2 (F := Ideal) (win0_1.fill (grid0.coords t) d (iblk m c 1 t)) (sup m c) (iblk m c 3 t)

/-- The layer of the four argument arrays as launched. -/
abbrev result (c : Dev nD) : S10000x128.Idx → EReal :=
  Cert.Spec.layer (m ((c : Thread nD τ).loc main_arg0)) (m ((c : Thread nD τ).loc main_arg1))
    (m ((c : Thread nD τ).loc main_arg2)) (m ((c : Thread nD τ).loc main_arg3))

/-- The scratch at entry (k, h): entry (k, h) of x · W. -/
theorem sup_apply (c : Dev nD) (k : Fin 10000) (h : Fin 128) :
    sup m c (ix2 k h)
      = Cert.Spec.support (m ((c : Thread nD τ).loc main_arg0)) (m ((c : Thread nD τ).loc main_arg2)) k h := by
  unfold sup
  refine (PayAt.pay1_apply _ _ k h).trans ?_
  rw [Geo.iblk0_eq, Geo.iblk2_eq]

/-- The output buffer at a moved index: the layer at row 328 · t + j, whatever `d` is. -/
theorem outBuf_moved (c : Dev nD) (t : Fin cfg0.N) (d : S328x10000.Idx → Elt Ideal .f32)
    (j : (win0_4.xblock (grid0.coords t)).Idx) :
    outBuf m c t d (win0_4.xinj (grid0.coords t) j)
      = result m c (ix2 ⟨t.val * 328 + (j 0).val, Geo.blk4_row_lt t j⟩ ⟨(j 1).val, Geo.blk4_col_lt t j⟩) := by
  rw [Geo.xinj4_eq]
  unfold outBuf
  refine (PayAt.pay2_apply _ _ _ _ _).trans ?_
  show _ = Cert.Spec.layer _ _ _ _ (ix2 _ _)
  rw [Cert.Spec.layer_apply]
  refine congrArg (fun z => max z 0) ?_
  congr 1
  · exact Finset.sum_congr rfl fun k _ => by rw [Geo.fetched1_apply (F := Ideal) m c t d j k, sup_apply]
  · exact Geo.iblk3_apply m c t _

/-- The part of the output buffer the write-back moves is block t of the layer, for every `d`. -/
theorem cut_outBuf (c : Dev nD) (t : Fin cfg0.N) (d : S328x10000.Idx → Elt Ideal .f32) :
    win0_4.cut (grid0.coords t) (outBuf m c t d)
      = ((cfg0.win 4).blk t).view.read (Elt Ideal) (result m c) := by
  funext j
  show outBuf m c t d (win0_4.xinj (grid0.coords t) j) = _
  rw [outBuf_moved]
  exact (Geo.read_blk4 (F := Ideal) c t (result m c) j).symm

end Cert.KernelIdeal.OutValue

end
-- ==== Proof.IdealBody.lean ====
/-
  One run of the kernel's body, over the contents of the buffers it touches. At the first grid point it forms the
  product x · W from the two whole-array windows and stores it into the scratch; at every point it multiplies the
  adjacency block by what the scratch holds, adds the bias row, rectifies, and stores the result into the output
  block. The four input buffers are left as they were found.
-/
import proofs.«167737_g85864986181825_cont_9to1_m_527_19_alg».proof.Proof.Gen.KernelIdeal.Frame
import proofs.«167737_g85864986181825_cont_9to1_m_527_19_alg».proof.Proof.Gen.KernelIdeal.Skeleton
import Idealize.ShloMosaic.Lib.Pipeline.Frame
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

abbrev 𝒱₀ : Variants := Variants.none

/-- The printed condition of the body's one branch: "the grid coordinate is 0". -/
abbrev firstPoint (i : grid0.Coords) : Prop :=
  Scalar.cmpi .ne (Scalar.extui (Scalar.cmpi .eq (BitVec.ofNat 32 (i 0).val) 0#32) : BitVec 32) 0#32 = 1#1

/-- It holds at point 0 of the grid and at no other. -/
theorem firstPoint_iff : ∀ t : Fin cfg0.N, firstPoint (grid0.coords t) ↔ t.val = 0 :=
  (by decide +kernel : ∀ t : Fin grid0.N, firstPoint (grid0.coords t) ↔ t.val = 0)

/-- All offsets zero, as the whole-buffer accesses spell them. -/
theorem hz2 : (![0, 0] : Fin 2 → Nat) = fun _ => 0 := funext fun a => by fin_cases a <;> rfl

/-- The closing steps shared by the staging slots: a whole load reads the contents, an unmasked whole store leaves
    the payload, and each buffer is handed back at the contents named. `b1`, `b4`: the adjacency window's and the
    output window's current buffers. -/
local macro "close_first" b1:ident b4:ident : tactic => `(tactic| (
  have hr0 : ∀ f, (Memref.whole cc0_stg0_0 : Memref sig .tc _ _ _).view.readAt (Elt F) (Rect.unit (s := S10000x128) ![0, 0] S10000x128.size
      inb_S10000x128_S10000x128_0_0).toLoadRect f = f := fun f => Memref.readAt_unit_zero (Elt F) cc0_stg0_0 hz2 _ f
  have hr1 : ∀ f, (Memref.whole $b1 : Memref sig .tc _ _ _).view.readAt (Elt F) (Rect.unit (s := S328x10000) ![0, 0] S328x10000.size
      inb_S328x10000_S328x10000_0_0).toLoadRect f = f := fun f => Memref.readAt_unit_zero (Elt F) $b1 hz2 _ f
  have hr2 : ∀ f, (Memref.whole cc0_stg2_0 : Memref sig .tc _ _ _).view.readAt (Elt F) (Rect.unit (s := S128x128) ![0, 0] S128x128.size
      inb_S128x128_S128x128_0_0).toLoadRect f = f := fun f => Memref.readAt_unit_zero (Elt F) cc0_stg2_0 hz2 _ f
  have hr3 : ∀ f, (Memref.whole cc0_stg3_0 : Memref sig .tc _ _ _).view.readAt (Elt F) (Rect.unit (s := S1x128) ![0, 0] S1x128.size
      inb_S1x128_S1x128_0_0).toLoadRect f = f := fun f => Memref.readAt_unit_zero (Elt F) cc0_stg3_0 hz2 _ f
  have hrS : ∀ f, (Memref.whole cc0_scratch0 : Memref sig .tc _ _ _).view.readAt (Elt F) (Rect.unit (s := S10000x128) ![0, 0] S10000x128.size
      inb_S10000x128_S10000x128_0_0).toLoadRect f = f := fun f => Memref.readAt_unit_zero (Elt F) cc0_scratch0 hz2 _ f
  have hwS : ∀ f w, (((Memref.whole cc0_scratch0).access (Rect.unit (s := S10000x128) ![0, 0] S10000x128.size inb_S10000x128_S10000x128_0_0)) :
      View sig .tc _ _ _).write (Elt F) f w Finset.univ = w := Memref.write_access_unit_zero_univ (Elt F) cc0_scratch0 hz2 _
  have hw4 : ∀ f w, (((Memref.whole $b4).access (Rect.unit (s := S328x128) ![0, 0] S328x128.size inb_S328x128_S328x128_0_0)) :
      View sig .tc _ _ _).write (Elt F) f w Finset.univ = w := Memref.write_access_unit_zero_univ (Elt F) $b4 hz2 _
  simp only [owns_whole_eq, cc0__gcn_fused_eq_skeleton]; unfold cc0__gcn_fused_skel
  iintro ⟨⟨⟨%f0, %hf0, H0⟩, ⟨%f1, %hf1, H1⟩, ⟨%f2, %hf2, H2⟩, ⟨%f3, %hf3, H3⟩, ⟨%f4, %hf4, H4⟩, ⟨%fs, HS⟩⟩, Hk⟩
  sl_exec
  simp only [Prog.lift, Prog.bind_op, Prog.bind_ret]
  sl_steps
  iapply Hk
  rw [hwS, hw4, hrS, hr0, hr1, hr2, hr3]
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists k0_pay2 f1 (k0_pay1 f0 f2) f3; isplitr; · ipureintro; rw [hf0, hf1, hf2, hf3]
    iexact H4
  · iexists k0_pay1 f0 f2; isplitr; · ipureintro; rw [hf0, hf2]
    iexact HS))

set_option maxHeartbeats 3200000 in
/-- THE FIRST POINT. The scratch arrives at contents nothing names and leaves holding the product of the two
    whole-array windows' contents (`k0_pay1 X0 X2`); the output buffer leaves holding `k0_pay2` of the adjacency
    buffer, that product and the bias row. -/
theorem body_first (c : Dev nD) (E : Set ℕ) (i : grid0.Coords) (hc : firstPoint i) (s0 : Fin 1) (s1 : Fin 2) (s2 : Fin 1) (s3 : Fin 1) (s4 : Fin 2)
    (X0 : S10000x128.Idx → Elt F .f32) (X1 : S328x10000.Idx → Elt F .f32) (X2 : S128x128.Idx → Elt F .f32)
    (X3 : S1x128.Idx → Elt F .f32) (X4 : S328x128.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare X4
            ∗ (∃ f : Buf (Elt F) ((c : Thread nD τ).loc cc0_scratch0), ((c : Thread nD τ).loc cc0_scratch0) ↦{fullShare} f))
          ∗ (iprop(owns (c : Thread nD τ) (stage0_0 s0) fullShare X0 ∗ owns (c : Thread nD τ) (stage0_1 s1) fullShare X1
                  ∗ owns (c : Thread nD τ) (stage0_2 s2) fullShare X2 ∗ owns (c : Thread nD τ) (stage0_3 s3) fullShare X3
                  ∗ owns (c : Thread nD τ) (stage0_4 s4) fullShare (k0_pay2 X1 (k0_pay1 X0 X2) X3)
                  ∗ owns (c : Thread nD τ) (Memref.whole cc0_scratch0) fullShare (k0_pay1 X0 X2)) -∗ K ⟨⟩))
      ⊢ wp frame (wpE (defs₀ (F := F)) 𝒱₀ c none) E
          (cc0__gcn_fused i (stage0_0 s0) (hstage0_0 s0) (stage0_1 s1) (hstage0_1 s1) (stage0_2 s2) (hstage0_2 s2)
            (stage0_3 s3) (hstage0_3 s3) (stage0_4 s4) (hstage0_4 s4) (Memref.whole cc0_scratch0) (Memref.isWhole_whole _)) K := by
  fin_cases s0 <;> fin_cases s1 <;> fin_cases s2 <;> fin_cases s3 <;> fin_cases s4
  · close_first cc0_stg1_0 cc0_stg4_0
  · close_first cc0_stg1_0 cc0_stg4_1
  · close_first cc0_stg1_1 cc0_stg4_0
  · close_first cc0_stg1_1 cc0_stg4_1

local macro "close_later" b1:ident b4:ident : tactic => `(tactic| (
  have hr1 : ∀ f, (Memref.whole $b1 : Memref sig .tc _ _ _).view.readAt (Elt F) (Rect.unit (s := S328x10000) ![0, 0] S328x10000.size
      inb_S328x10000_S328x10000_0_0).toLoadRect f = f := fun f => Memref.readAt_unit_zero (Elt F) $b1 hz2 _ f
  have hr3 : ∀ f, (Memref.whole cc0_stg3_0 : Memref sig .tc _ _ _).view.readAt (Elt F) (Rect.unit (s := S1x128) ![0, 0] S1x128.size
      inb_S1x128_S1x128_0_0).toLoadRect f = f := fun f => Memref.readAt_unit_zero (Elt F) cc0_stg3_0 hz2 _ f
  have hrS : ∀ f, (Memref.whole cc0_scratch0 : Memref sig .tc _ _ _).view.readAt (Elt F) (Rect.unit (s := S10000x128) ![0, 0] S10000x128.size
      inb_S10000x128_S10000x128_0_0).toLoadRect f = f := fun f => Memref.readAt_unit_zero (Elt F) cc0_scratch0 hz2 _ f
  have hw4 : ∀ f w, (((Memref.whole $b4).access (Rect.unit (s := S328x128) ![0, 0] S328x128.size inb_S328x128_S328x128_0_0)) :
      View sig .tc _ _ _).write (Elt F) f w Finset.univ = w := Memref.write_access_unit_zero_univ (Elt F) $b4 hz2 _
  simp only [owns_whole_eq, cc0__gcn_fused_eq_skeleton]; unfold cc0__gcn_fused_skel
  iintro ⟨⟨⟨%f0, %hf0, H0⟩, ⟨%f1, %hf1, H1⟩, ⟨%f2, %hf2, H2⟩, ⟨%f3, %hf3, H3⟩, ⟨%f4, %hf4, H4⟩, ⟨%fs, %hfs, HS⟩⟩, Hk⟩
  sl_exec
  simp only [Prog.lift, Prog.bind_op, Prog.bind_ret]
  sl_steps
  iapply Hk
  rw [hw4, hrS, hr1, hr3]
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists k0_pay2 f1 fs f3; isplitr; · ipureintro; rw [hf1, hfs, hf3]
    iexact H4
  · iexists fs; isplitr; · ipureintro; exact hfs
    iexact HS))

set_option maxHeartbeats 3200000 in
/-- EVERY LATER POINT. The scratch arrives holding `Sc` and leaves holding it; the output buffer leaves holding
    `k0_pay2` of the adjacency buffer, `Sc` and the bias row. -/
theorem body_later (c : Dev nD) (E : Set ℕ) (i : grid0.Coords) (hc : ¬ firstPoint i) (s0 : Fin 1) (s1 : Fin 2) (s2 : Fin 1) (s3 : Fin 1) (s4 : Fin 2)
    (X0 : S10000x128.Idx → Elt F .f32) (X1 : S328x10000.Idx → Elt F .f32) (X2 : S128x128.Idx → Elt F .f32)
    (X3 : S1x128.Idx → Elt F .f32) (X4 : S328x128.Idx → Elt F .f32) (Sc : S10000x128.Idx → Elt F .bf16) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare X4
            ∗ owns (c : Thread nD τ) (Memref.whole cc0_scratch0) fullShare Sc)
          ∗ (iprop(owns (c : Thread nD τ) (stage0_0 s0) fullShare X0 ∗ owns (c : Thread nD τ) (stage0_1 s1) fullShare X1
                  ∗ owns (c : Thread nD τ) (stage0_2 s2) fullShare X2 ∗ owns (c : Thread nD τ) (stage0_3 s3) fullShare X3
                  ∗ owns (c : Thread nD τ) (stage0_4 s4) fullShare (k0_pay2 X1 Sc X3)
                  ∗ owns (c : Thread nD τ) (Memref.whole cc0_scratch0) fullShare Sc) -∗ K ⟨⟩))
      ⊢ wp frame (wpE (defs₀ (F := F)) 𝒱₀ c none) E
          (cc0__gcn_fused i (stage0_0 s0) (hstage0_0 s0) (stage0_1 s1) (hstage0_1 s1) (stage0_2 s2) (hstage0_2 s2)
            (stage0_3 s3) (hstage0_3 s3) (stage0_4 s4) (hstage0_4 s4) (Memref.whole cc0_scratch0) (Memref.isWhole_whole _)) K := by
  fin_cases s0 <;> fin_cases s1 <;> fin_cases s2 <;> fin_cases s3 <;> fin_cases s4
  · close_later cc0_stg1_0 cc0_stg4_0
  · close_later cc0_stg1_0 cc0_stg4_1
  · close_later cc0_stg1_1 cc0_stg4_0
  · close_later cc0_stg1_1 cc0_stg4_1

end Cert.KernelIdeal.Body

end
-- ==== Proof.IdealRun.lean ====
/-
  The idealized kernel's run, with its result named. The pipeline visits 31 grid points. The scratch holds
  anything before the first point and the product x · W after it, unchanged from then on; at every point the
  output buffer's rows inside the array leave holding the matching rows of the layer of Spec.lean, whatever
  the adjacency buffer held past the array's end, and the write-backs of the 31 blocks cover the result array.
-/
import proofs.«167737_g85864986181825_cont_9to1_m_527_19_alg».proof.Proof.Gen.KernelIdeal.Frame
import proofs.«167737_g85864986181825_cont_9to1_m_527_19_alg».proof.Proof.Gen.KernelIdeal.Skeleton
import proofs.«167737_g85864986181825_cont_9to1_m_527_19_alg».proof.Proof.Spec
import proofs.«167737_g85864986181825_cont_9to1_m_527_19_alg».proof.Proof.Geo
import proofs.«167737_g85864986181825_cont_9to1_m_527_19_alg».proof.Proof.OutValue
import proofs.«167737_g85864986181825_cont_9to1_m_527_19_alg».proof.Proof.IdealBody
import Idealize.ShloMosaic.Lib.Pipeline.Frame
import Idealize.ShloMosaic.Lib.Pipeline.Value
import Idealize.ShloMosaic.Lib.Tactic

set_option maxRecDepth 16384

noncomputable section

namespace Cert.KernelIdeal.Run

open Cert.KernelIdeal Cert.KernelIdeal.Gen Cert.KernelIdeal.OutValue Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The proof data -/

/-- A filler for the adjacency buffer's rows past the array's end, which no statement reads: zero. -/
def zeroTail : S328x10000.Idx → Elt Ideal .f32 := fun _ => (0 : EReal)

/-- The region's invariant before position n: before the first point the scratch holds anything; afterwards it
    holds the product x · W. The generator register is at some state throughout. -/
def PhiS (c : Dev nD) : ℕ → sProp 𝕄
  | 0 => Pipeline.ΦA spec0 c
  | _ + 1 => iprop(owns (c : Thread nD τ) (Memref.whole cc0_scratch0) fullShare (sup m c) ∗ (∃ r, prngReg c r))

theorem PhiS_succ (c : Dev nD) (n : ℕ) :
    PhiS m c (n + 1) = iprop(owns (c : Thread nD τ) (Memref.whole cc0_scratch0) fullShare (sup m c) ∗ (∃ r, prngReg c r)) := rfl

/-- After the body at point t: each input buffer holds its block (the adjacency buffer's filled out with zeros
    past the array's end), the output buffer the rectified sums of that block against the scratch. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) zeroTail (iblk m c 1 t)
    | ⟨2, _⟩ => iblk m c 2 t
    | ⟨3, _⟩ => iblk m c 3 t
    | ⟨4, _⟩ => outBuf m c t zeroTail
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) :
    (dats m 0 c).after 1 t = win0_1.fill (grid0.coords t) zeroTail (iblk m c 1 t) := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outBuf m c t zeroTail := by dsimp only [dats]

/-! ## What the body finds -/

/-- The three whole-array windows are fetched once; their buffers hold their blocks at every point. -/
theorem before0_0 (c : Dev nD) (t : Fin cfg0.N) (d) : (dats m 0 c).before 0 t d = iblk m c 0 t :=
  before0_0_of m (dats m 0 c) (A_eq m c 0) (after0_0 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The adjacency window is fetched at every point: its buffer holds the block on the rows inside the array and
    `d` past them. -/
theorem before0_1 (c : Dev nD) (t : Fin cfg0.N) (d) :
    (dats m 0 c).before 1 t d = win0_1.fill (grid0.coords t) d (iblk m c 1 t) := by
  unfold Dat.before; rw [if_pos (fetch0_1 t)]; rfl

/-- The output window is never fetched, -/
theorem fetch0_4 : ∀ t : Fin cfg0.N, (cfg0.win 4).fetch t = false :=
  (by decide +kernel : ∀ t : Fin grid0.N, win0_4.fetch t = false)

/-- and it is written back at every point: its buffer holds contents nothing names when the body starts. -/
theorem before0_4 (c : Dev nD) (t : Fin cfg0.N) (d) : (dats m 0 c).before 4 t d = d := by
  unfold Dat.before
  rw [if_neg (by rw [fetch0_4 t]; exact Bool.false_ne_true)]
  by_cases h0 : t.val = 0
  · rw [if_pos h0]
  · rw [if_neg h0]; exact if_pos (flush0_4 _)

/-! ## The body obligation -/

set_option maxHeartbeats 3200000 in
/-- At every point the body, handed the invariant and the five current buffers at what they then hold, returns
    the invariant of the next position and each buffer at what the proof data say; of the two windows cut at the
    array's end only the rows inside the array are stated. -/
theorem body_obligation (c : Dev nD) : BodyObligationLoose (dats m 0 c) (defs₀ (F := Ideal)) 𝒱₀ () Set.univ := fun t => by
  rw [bigSep_W0, bigSep_W0]
  simp only
  rw [show (dats m 0 c).owesAt () t.succ = (dats m 0 c).owesAt () t.castSucc from rfl,
    show (dats m 0 c).Φ t.succ = PhiS m c (t.val + 1) from rfl,
    show (dats m 0 c).Φ t.castSucc = PhiS m c t.val from rfl]
  -- on the rows the write-back moves the output buffer is the same for every filler of the adjacency buffer's tail
  have hcut : ∀ d, win0_4.cut (grid0.coords t) (outBuf m c t d) = win0_4.cut (grid0.coords t) (outBuf m c t zeroTail) :=
    fun d => (cut_outBuf m c t d).trans (cut_outBuf m c t zeroTail).symm
  by_cases h0 : t.val = 0
  · -- the first point: the scratch arrives at anything and leaves at the product
    have ht : t = t0 := Fin.ext h0
    have hsup : k0_pay1 (F := Ideal) (iblk m c 0 t) (iblk m c 2 t) = sup m c := by rw [ht]; rfl
    rw [h0, PhiS_succ m c 0]
    show iprop(Pipeline.ΦA spec0 c ∗ _) ⊢ _
    unfold Pipeline.ΦA
    rw [scopedRest0_eq]
    iintro ⟨⟨HS, Hg⟩, Ho, ⟨%d0, H0⟩, ⟨%d1, H1⟩, ⟨%d2, H2⟩, ⟨%d3, H3⟩, ⟨%d4, H4⟩⟩
    rw [before0_0 m c t d0, before0_1 m c t d1, before0_2 m c t d2, before0_3 m c t d3, before0_4 m c t d4]
    iapply (body_first (F := Ideal) c Set.univ (grid0.coords t) ((firstPoint_iff t).mpr h0)
      (cfg0.slots t 0) (cfg0.slots t 1) (cfg0.slots t 2) (cfg0.slots t 3) (cfg0.slots t 4)
      (iblk m c 0 t) (win0_1.fill (grid0.coords t) d1 (iblk m c 1 t)) (iblk m c 2 t) (iblk m c 3 t) d4 _)
    isplitl [H0 H1 H2 H3 H4 HS]
    · isplitl [H0]; · iexact H0
      isplitl [H1]; · iexact H1
      isplitl [H2]; · iexact H2
      isplitl [H3]; · iexact H3
      isplitl [H4]; · iexact H4
      iexact HS
    iintro ⟨H0, H1, H2, H3, H4, HS⟩
    rw [hsup]
    isplitl [HS Hg]
    · isplitl [HS]; · iexact HS
      iexact Hg
    isplitl [Ho]; · iexact Ho
    isplitl [H0]; · rw [after0_0]; iexact H0
    isplitl [H1]
    · iexists d1
      change _ ⊢ owns (c : Thread nD τ) (stage0_1 (cfg0.slots t 1)) fullShare
        (win0_1.fill (grid0.coords t) d1 (win0_1.cut (grid0.coords t) ((dats m 0 c).after 1 t)))
      rw [after0_1, win0_1.cut_fill]; try iexact H1
    isplitl [H2]; · rw [after0_2]; iexact H2
    isplitl [H3]; · rw [after0_3]; iexact H3
    · iexists outBuf m c t d1
      change _ ⊢ owns (c : Thread nD τ) (stage0_4 (cfg0.slots t 4)) fullShare
        (win0_4.fill (grid0.coords t) (outBuf m c t d1) (win0_4.cut (grid0.coords t) ((dats m 0 c).after 4 t)))
      rw [after0_4, win0_4.fill_congr_cut (grid0.coords t) (hcut d1)]
      exact Idealize.SL.BI.Entails.refl _
  · -- a later point: the scratch arrives at the product and leaves at it
    obtain ⟨n, hn⟩ : ∃ n, t.val = n + 1 := ⟨t.val - 1, by omega⟩
    rw [hn, PhiS_succ m c (n + 1), PhiS_succ m c n]
    iintro ⟨⟨HS, Hg⟩, Ho, ⟨%d0, H0⟩, ⟨%d1, H1⟩, ⟨%d2, H2⟩, ⟨%d3, H3⟩, ⟨%d4, H4⟩⟩
    rw [before0_0 m c t d0, before0_1 m c t d1, before0_2 m c t d2, before0_3 m c t d3, before0_4 m c t d4]
    iapply (body_later (F := Ideal) c Set.univ (grid0.coords t) (fun h => h0 ((firstPoint_iff t).mp h))
      (cfg0.slots t 0) (cfg0.slots t 1) (cfg0.slots t 2) (cfg0.slots t 3) (cfg0.slots t 4)
      (iblk m c 0 t) (win0_1.fill (grid0.coords t) d1 (iblk m c 1 t)) (iblk m c 2 t) (iblk m c 3 t) d4 (sup m c) _)
    isplitl [H0 H1 H2 H3 H4 HS]
    · isplitl [H0]; · iexact H0
      isplitl [H1]; · iexact H1
      isplitl [H2]; · iexact H2
      isplitl [H3]; · iexact H3
      isplitl [H4]; · iexact H4
      iexact HS
    iintro ⟨H0, H1, H2, H3, H4, HS⟩
    isplitl [HS Hg]
    · isplitl [HS]; · iexact HS
      iexact Hg
    isplitl [Ho]; · iexact Ho
    isplitl [H0]; · rw [after0_0]; iexact H0
    isplitl [H1]
    · iexists d1
      change _ ⊢ owns (c : Thread nD τ) (stage0_1 (cfg0.slots t 1)) fullShare
        (win0_1.fill (grid0.coords t) d1 (win0_1.cut (grid0.coords t) ((dats m 0 c).after 1 t)))
      rw [after0_1, win0_1.cut_fill]; try iexact H1
    isplitl [H2]; · rw [after0_2]; iexact H2
    isplitl [H3]; · rw [after0_3]; iexact H3
    · iexists outBuf m c t d1
      change _ ⊢ owns (c : Thread nD τ) (stage0_4 (cfg0.slots t 4)) fullShare
        (win0_4.fill (grid0.coords t) (outBuf m c t d1) (win0_4.cut (grid0.coords t) ((dats m 0 c).after 4 t)))
      rw [after0_4, win0_4.fill_congr_cut (grid0.coords t) (hcut d1)]
      exact Idealize.SL.BI.Entails.refl _

/-! ## The launch -/

/-- What the launch hands the region is the invariant before the first point. -/
theorem hin (c : Dev nD) : Pipeline.ΦA spec0 c ⊢ (dats m 0 c).Φ 0 := by
  show _ ⊢ PhiS m c 0
  exact Idealize.SL.BI.Entails.refl _

/-- After the last point the invariant gives the scratch back at some contents: what it holds is forgotten. -/
theorem hout (c : Dev nD) : (dats m 0 c).Φ (Fin.last cfg0.N) ⊢ Pipeline.ΦA spec0 c := by
  show PhiS m c (Fin.last cfg0.N).val ⊢ _
  rw [show (Fin.last cfg0.N).val = 30 + 1 from by rw [Fin.val_last]; exact N_0]
  show iprop(owns (c : Thread nD τ) (Memref.whole cc0_scratch0) fullShare (sup m c) ∗ (∃ r, prngReg c r)) ⊢ _
  unfold Pipeline.ΦA
  rw [scopedRest0_eq]
  simp only [owns_whole_eq]
  iintro ⟨⟨%f, %hf, HS⟩, Hg⟩
  isplitl [HS]
  · iexists f; iexact HS
  iexact Hg

set_option backward.isDefEq.respectTransparency.types false in
/-- Every weakly fair execution of the program terminates, without a fault, with each array of the pipeline at
    what the write-backs of the proof data leave in it and the bias vector as launched. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

/-! ## The result -/

/-- The 31 write-backs, each block t of the layer, cover the result array: it ends holding the layer. -/
theorem final4 (c : Dev nD) : (dats m 0 c).arrAt 4 cfg0.N = result m c :=
  (dats m 0 c).arrAt_eq_of_cover 4 (result m c)
    (fun t _ => by
      show win0_4.cut (grid0.coords t) ((dats m 0 c).after 4 t) = _
      rw [after0_4]; exact cut_outBuf m c t zeroTail)
    (Geo.cover4 c)

/-- THE RUN, with the result named: the result array ends at the layer of the four arguments, which end unchanged. -/
theorem kernel_run :
    θ_run defs (onTc (τ := τ) (main (F := Ideal))) ⟨m, fun _ => 0, ρ⟩ (fun r => ∀ c : Dev nD,
      r.2.mem ((c.tc : Thread nD τ).loc main_v1)
        = Cert.Spec.layer (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (final4 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

end Cert.KernelIdeal.Run

end
-- ==== Proof.RefSpec.lean ====
/-
  The reference program computes the layer of Spec.lean.
-/
import proofs.«167737_g85864986181825_cont_9to1_m_527_19_alg».proof.Proof.Gen.ReferenceIdeal.Read
import proofs.«167737_g85864986181825_cont_9to1_m_527_19_alg».proof.Proof.Spec
import Idealize.ShloMosaic.PureOps.Ideal.Laws
import Idealize.ShloMosaic.Lib.ValueIdx

noncomputable section

namespace Cert.RefSpec

open Cert.ReferenceIdeal Cert.ReferenceIdeal.Gen Idealize.ShloMosaic Idealize.ShloMosaic.TcCoe Idealize.SL.Sem
open Idealize.ShloMosaic.ValueIdx

/-- The last stage of the reference, as a function of the four arguments, is the layer. -/
theorem ref_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal)) :
    Cert.ReferenceIdeal.Read.val_main_v5 (F := Ideal) x0 x1 x2 x3 = Cert.Spec.layer x0 x1 x2 x3 := by
  funext i
  obtain ⟨r, h, rfl⟩ : ∃ r h, i = ix2 r h := ⟨i 0, i 1, eq_ix2 i⟩
  -- the adjacency product reads row r of the adjacency matrix and column h of the product x · W
  have e1l : ∀ k : Fin 10000, Read.lidx_main_v1 (ix2 r h) k = ix2 r k := fun k =>
    funext fun a => Fin.ext (by match a with | ⟨0, _⟩ => rfl | ⟨1, _⟩ => rfl)
  have e1r : ∀ k : Fin 10000, Read.ridx_main_v1 (ix2 r h) k = ix2 k h := fun k =>
    funext fun a => Fin.ext (by match a with | ⟨0, _⟩ => rfl | ⟨1, _⟩ => rfl)
  -- the product x · W at (k, h) reads row k of x and column h of W
  have e0l : ∀ (k : Fin 10000) (j : Fin 128), Read.lidx_main_v0 (ix2 k h) j = ix2 k j := fun k j =>
    funext fun a => Fin.ext (by match a with | ⟨0, _⟩ => rfl | ⟨1, _⟩ => rfl)
  have e0r : ∀ (k : Fin 10000) (j : Fin 128), Read.ridx_main_v0 (ix2 k h) j = ix2 j h := fun k j =>
    funext fun a => Fin.ext (by match a with | ⟨0, _⟩ => rfl | ⟨1, _⟩ => rfl)
  -- the two broadcasts of the bias read it at column h
  have eb : Read.idx_main_v2 (Read.idx_main_v3 (ix2 r h)) = ix1 h :=
    funext fun a => Fin.ext (by match a with | ⟨0, _⟩ => rfl)
  rw [Read.val_main_v5_apply, Read.val_main_v4_apply, Read.val_main_v1_apply, Read.val_main_v3_apply,
    Read.val_main_v2_apply, Read.val_main_call0_v0_apply, Read.val_main_call0_cst_apply]
  simp only [Read.val_main_v0_apply, e1l, e1r, e0l, e0r, eb, Ideal.maximumf_def, Ideal.addf_def, Ideal.ofBits_def,
    Ideal.ofBits_zero_f32]
  rfl

/-- The reference's run: its result array ends at the layer of its arguments, which end unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v5)
        = Cert.Spec.layer (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨(h c).1.trans ((Read.val_main_v5_eq _ _ _ _).trans (ref_eq _ _ _ _)), (h c).2⟩)
    (Cert.ReferenceIdeal.Value.run (F := Ideal) m ρ)

end Cert.RefSpec

end
-- ==== Proof.lean ====
/-
  A graph-convolution layer with a dense adjacency matrix: out = relu (adj · (x · W) + b), with x of 10000 rows
  and 128 features, adj 10000 × 10000, W 128 × 128 and b of 128 entries.

  The kernel visits 31 grid points. At the first it forms the product x · W once and keeps it in a scratch buffer
  for the rest of the run (stored in a 16-bit format, a change of format that is the identity at the ideal
  values). At point t it multiplies rows 328 · t … 328 · t + 327 of adj by that product, adds the bias and
  rectifies. 10000 is not a multiple of 328: the last block overhangs the array by 168 rows, the buffer's rows
  past the array's end hold words nothing names, and the matching rows of the output block are never written
  back. Row r of a matrix product reads row r of its left factor only, so the rows that ARE written back do not
  depend on those words.

  The reference computes the same expression on the host, in the same grouping, so the two results agree entry by
  entry as extended reals with no law of arithmetic between them: entry (r, h) of both is
  max (Σ_k adj[r, k] · (Σ_j x[k, j] · W[j, h]) + b[h], 0)  (Proof/Spec.lean).

  The word-level kernel's frame says nothing of what its buffers hold, so it is proved with every window's
  contents left unnamed (Proof/KernelFrame.lean); the idealized kernel's run names its result (Proof/IdealRun.lean)
  and gives its frame with it; the reference's run is read off its operations (Proof/RefSpec.lean). The ideal pass
  rewrote no operation, so there is nothing for `preserves` to state.
-/
import proofs.«167737_g85864986181825_cont_9to1_m_527_19_alg».proof.Defs
import proofs.«167737_g85864986181825_cont_9to1_m_527_19_alg».proof.Proof.Gen.Kernel
import proofs.«167737_g85864986181825_cont_9to1_m_527_19_alg».proof.Proof.Gen.KernelIdeal
import proofs.«167737_g85864986181825_cont_9to1_m_527_19_alg».proof.Proof.Gen.ReferenceIdeal
import proofs.«167737_g85864986181825_cont_9to1_m_527_19_alg».proof.Proof.Gen.Pre_finite_inputs
import proofs.«167737_g85864986181825_cont_9to1_m_527_19_alg».proof.Proof.KernelFrame
import proofs.«167737_g85864986181825_cont_9to1_m_527_19_alg».proof.Proof.IdealRun
import proofs.«167737_g85864986181825_cont_9to1_m_527_19_alg».proof.Proof.RefSpec
import Idealize.ShloMosaic.Adequacy
import Idealize.ShloMosaic.Init

noncomputable section

namespace Cert.Proof

open Idealize.ShloMosaic Idealize.SL.Sem

/-- The word-level kernel runs to its end and leaves its arguments unchanged. -/
theorem frame_kernel : Cert.frame_Kernel := fun m ρ _ => Cert.Kernel.FrameProof.frame_run (F := Bits) m ρ

/-- So does the idealized kernel: its run with the result named, the result dropped. -/
theorem frame_kernelIdeal : Cert.frame_KernelIdeal := fun m ρ _ =>
  (θ_run Cert.KernelIdeal.defs _ _).mono (fun _ h c => (h c).2) (Cert.KernelIdeal.Run.kernel_run m ρ)

/-- So does the reference. -/
theorem frame_referenceIdeal : Cert.frame_ReferenceIdeal := fun m ρ _ =>
  (θ_run Cert.ReferenceIdeal.defs _ _).mono (fun _ h c => (h c).2) (Cert.RefSpec.ref_run m ρ)

/-- From memories that agree on the four arguments both programs end with their result array at the layer of
    those arguments. -/
theorem algebraic : Cert.algebraic_KernelIdeal_ReferenceIdeal := by
  intro m ρ m' ρ' _ hagree
  refine ⟨_, Cert.KernelIdeal.Run.kernel_run m ρ, ?_⟩
  refine (θ_run Cert.ReferenceIdeal.defs _ _).mono (fun _ h c => ⟨(h c).1.trans ?_, (h c).2⟩) (Cert.RefSpec.ref_run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
